-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x2048 : Shape := ⟨2, ![1024, 2048]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 22
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096, .f32⟩
  | .hbm, ⟨13, _⟩ => ⟨S4096x1024, .f32⟩
  | .hbm, ⟨14, _⟩ => ⟨S4096x1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S1x4096, .f32⟩
  | .hbm, ⟨20, _⟩ => ⟨S4096x1024, .f32⟩
  | .hbm, ⟨21, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  slices_S4096x2048_S4096x1024_0_0 : S4096x2048.Slices ![0, 0] S4096x1024
  slices_S4096x2048_S4096x1024_0_1024 : S4096x2048.Slices ![0, 1024] S4096x1024
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S2048x4096 : Shape := ⟨2, ![2048, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.K.Entry.lean ====
/-
  The kernel program up to its one pallas_call: what every buffer holds when the call is entered, and the
  frame property read off a run of the call.

  Before the call @main stacks the four gate weight matrices into one [4096, 2048] array and the four biases into one
  [4096] vector, cuts the stacked weights into the half that multiplies the inputs (columns 0..1023) and the half
  that multiplies the hidden state (columns 1024..2047), transposes each half, and lays the bias out as one row.
  None of those nine operations writes an argument array, so each argument is found as it was launched (`V_main_argK`).
  `iblk` is the block of a window's array that grid point `t` sees; an input window's staging buffer holds that block
  at every point, whether the pipeline fetched it there or kept it from the point before (`before_in`). `frame_of`
  turns a run whose post names every array into the statement that the eleven arguments end unchanged.
-/
import proofs.«112923_j85194971283756_1_alg».proof.Proof.Gen.Kernel.Launch
import proofs.«112923_j85194971283756_1_alg».proof.Proof.Gen.Kernel.Skeleton
import proofs.«112923_j85194971283756_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the call -/

/-- Core `c`'s buffers when the call is entered: the launch contents after the nine host operations. -/
abbrev V (c : Dev nD) (b : Ref sig .tc) : Buf (Elt F) ((c : Thread nD τ).loc b) :=
  StableHlo.after (List.flatten [hostOps0]) (fun b => m (c, b)) b

/-- No host operation allocates a buffer. -/
theorem hostOps0_fresh : (hostOps0 : List (HloOp τ sig (Elt F))).Forall fun op => op.fresh = ∅ := by
  simp only [List.Forall]; repeat' constructor

/-- @main is the nine host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- A buffer that none of the nine operations writes is found as launched: the operations write `main_v0` … `main_v8`. -/
theorem V_of_unwritten (c : Dev nD) (b : Ref sig .tc)
    (h0 : b ≠ main_v0) (h1 : b ≠ main_v1) (h2 : b ≠ main_v2) (h3 : b ≠ main_v3) (h4 : b ≠ main_v4)
    (h5 : b ≠ main_v5) (h6 : b ≠ main_v6) (h7 : b ≠ main_v7) (h8 : b ≠ main_v8) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8⟩))

theorem V_main_arg0 (c : Dev nD) : V m c main_arg0 = m ((c : Thread nD τ).loc main_arg0) :=
  V_of_unwritten m c _ (by decide) (by decide) (by decide) (by decide) (by decide) (by decide) (by decide) (by decide) (by decide)
theorem V_main_arg1 (c : Dev nD) : V m c main_arg1 = m ((c : Thread nD τ).loc main_arg1) :=
  V_of_unwritten m c _ (by decide) (by decide) (by decide) (by decide) (by decide) (by decide) (by decide) (by decide) (by decide)
theorem V_main_arg2 (c : Dev nD) : V m c main_arg2 = m ((c : Thread nD τ).loc main_arg2) :=
  V_of_unwritten m c _ (by decide) (by decide) (by decide) (by decide) (by decide) (by decide) (by decide) (by decide) (by decide)
theorem V_main_arg3 (c : Dev nD) : V m c main_arg3 = m ((c : Thread nD τ).loc main_arg3) :=
  V_of_unwritten m c _ (by decide) (by decide) (by decide) (by decide) (by decide) (by decide) (by decide) (by decide) (by decide)
theorem V_main_arg4 (c : Dev nD) : V m c main_arg4 = m ((c : Thread nD τ).loc main_arg4) :=
  V_of_unwritten m c _ (by decide) (by decide) (by decide) (by decide) (by decide) (by decide) (by decide) (by decide) (by decide)
theorem V_main_arg5 (c : Dev nD) : V m c main_arg5 = m ((c : Thread nD τ).loc main_arg5) :=
  V_of_unwritten m c _ (by decide) (by decide) (by decide) (by decide) (by decide) (by decide) (by decide) (by decide) (by decide)
theorem V_main_arg6 (c : Dev nD) : V m c main_arg6 = m ((c : Thread nD τ).loc main_arg6) :=
  V_of_unwritten m c _ (by decide) (by decide) (by decide) (by decide) (by decide) (by decide) (by decide) (by decide) (by decide)
theorem V_main_arg7 (c : Dev nD) : V m c main_arg7 = m ((c : Thread nD τ).loc main_arg7) :=
  V_of_unwritten m c _ (by decide) (by decide) (by decide) (by decide) (by decide) (by decide) (by decide) (by decide) (by decide)
theorem V_main_arg8 (c : Dev nD) : V m c main_arg8 = m ((c : Thread nD τ).loc main_arg8) :=
  V_of_unwritten m c _ (by decide) (by decide) (by decide) (by decide) (by decide) (by decide) (by decide) (by decide) (by decide)
theorem V_main_arg9 (c : Dev nD) : V m c main_arg9 = m ((c : Thread nD τ).loc main_arg9) :=
  V_of_unwritten m c _ (by decide) (by decide) (by decide) (by decide) (by decide) (by decide) (by decide) (by decide) (by decide)
theorem V_main_arg10 (c : Dev nD) : V m c main_arg10 = m ((c : Thread nD τ).loc main_arg10) :=
  V_of_unwritten m c _ (by decide) (by decide) (by decide) (by decide) (by decide) (by decide) (by decide) (by decide) (by decide)

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the inputs' rows): its current staging buffer holds its block at every point, fetched there or
    kept from the point before (then the block index has not moved), for any proof data over the entry contents
    whose body leaves the block in place. The five lemmas after it say the same of the other input windows. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame property from a run that names the arrays -/

/-- For any proof data over the entry contents, a run of @main to the pipeline's frame post leaves the eleven
    arguments as launched: the three staged inputs by the library's reading of an input window's array, the eight
    weight and bias arrays (which no window stages) by the post's clause for the other buffers. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

end Cert.Kernel.Entry

end
-- ==== Proof.K.Body.lean ====
/-
  One grid point of the kernel, as a triple.

  The body reads its six input blocks whole (a 256-row tile of the inputs, of the hidden state and of the cell state;
  the two transposed weight halves; the bias row), computes the four gate pre-activations as one [256, 4096] tile,
  and stores the new hidden tile and the new cell tile, each whole. It also loads each output buffer once before
  storing into it; those values are dropped. So after the body each output buffer holds one piece, the stored payload
  of the six loaded blocks (`outH`, `outC`), and the input buffers are as found.
-/
import proofs.«112923_j85194971283756_1_alg».proof.Proof.Gen.Kernel.Launch
import proofs.«112923_j85194971283756_1_alg».proof.Proof.Gen.Kernel.Skeleton
import proofs.«112923_j85194971283756_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store takes its buffer whole -/

/-- A whole [256, 1024] tile. -/
abbrev rTile : Rect S256x1024 := Rect.unit (s := S256x1024) ![0, 0] S256x1024.size inb_S256x1024_S256x1024_0_0
/-- A whole transposed weight half. -/
abbrev rW : Rect S1024x4096 := Rect.unit (s := S1024x4096) ![0, 0] S1024x4096.size inb_S1024x4096_S1024x4096_0_0
/-- The whole bias row. -/
abbrev rB : Rect S1x4096 := Rect.unit (s := S1x4096) ![0, 0] S1x4096.size inb_S1x4096_S1x4096_0_0

/-! ## What the body leaves in each output buffer -/

/-- The new hidden tile: the one store into the first output buffer, as a piece over the loaded blocks. -/
def outH (x h cp : Vec F S256x1024 .f32) (wa wb : Vec F S1024x4096 .bf16) (b : Vec F S1x4096 .f32) : Vec F S256x1024 .f32 :=
  View.canon [⟨rTile, k0_pay3 (View.ld x rTile) (View.ld h rTile) (View.ld wa rW) (View.ld wb rW) (View.ld b rB) (View.ld cp rTile)⟩]

/-- The new cell tile: the one store into the second output buffer. -/
def outC (x h cp : Vec F S256x1024 .f32) (wa wb : Vec F S1024x4096 .bf16) (b : Vec F S1x4096 .f32) : Vec F S256x1024 .f32 :=
  View.canon [⟨rTile, k0_pay2 (View.ld x rTile) (View.ld h rTile) (View.ld wa rW) (View.ld wb rW) (View.ld b rB) (View.ld cp rTile)⟩]

/-- One whole-tile store covers the tile. -/
theorem cover_tile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The triple -/

set_option maxHeartbeats 1000000 in
/-- On whole staging buffers, the inputs' at contents `x`, `h`, `cp`, `wa`, `wb`, `b` and the outputs' at anything, the
    body runs to a continuation that is handed the inputs' as they were and the outputs' at `outH` and `outC`. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h cp : Vec F S256x1024 .f32) (wa wb : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wa ∗ owns (c : Thread nD τ) arg5 fullShare wb ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wa ∗ owns (c : Thread nD τ) arg5 fullShare wb ∗ owns (c : Thread nD τ) arg6 fullShare b
            ∗ owns (c : Thread nD τ) arg7 fullShare (outH x h cp wa wb b) ∗ owns (c : Thread nD τ) arg8 fullShare (outC x h cp wa wb b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

end Cert.Kernel.Body

end
-- ==== Proof.K.Run.lean ====
/-
  The kernel program's run: the pipeline's proof data, the body obligation at every grid point, and the
  run of @main that names every array afterwards.

  The proof data say what each staging buffer holds after the body at point `t`: an input's buffer its block
  (`Entry.iblk`), the two outputs' buffers the new hidden and cell tiles of the six input blocks at `t`
  (`Body.outH`, `Body.outC`). With them the body's triple (`Body.sound_kernel`) is the obligation the launch
  theorem asks at each point, and the launch theorem gives the run; `frame` reads the frame property off it.
-/
import proofs.«112923_j85194971283756_1_alg».proof.Proof.K.Entry
import proofs.«112923_j85194971283756_1_alg».proof.Proof.K.Body

set_option maxRecDepth 16384

noncomputable section

namespace Cert.Kernel.Run

open Cert.Kernel Cert.Kernel.Gen Cert.Kernel.Entry Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the call finds them; after the body at point `t` each input's buffer at its block and each output's
    at the tile the body stored; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after7 (c : Dev nD) (t : Fin cfg0.N) : (dats m 0 c).after 7 t
    = outC (iblk m c 0 t) (iblk m c 1 t) (iblk m c 2 t) (iblk m c 3 t) (iblk m c 4 t) (iblk m c 5 t) := by dsimp only [dats]

/-- Each input's current staging buffer holds its block at every point. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation the launch asks, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other unscoped buffer as
    the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere and leaves its eleven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Run

end
-- ==== Proof.KI.Entry.lean ====
/-
  The kernel program up to its one pallas_call: what every buffer holds when the call is entered, and the
  frame property read off a run of the call.

  Before the call @main stacks the four gate weight matrices into one [4096, 2048] array and the four biases into one
  [4096] vector, cuts the stacked weights into the half that multiplies the inputs (columns 0..1023) and the half
  that multiplies the hidden state (columns 1024..2047), transposes each half, and lays the bias out as one row.
  None of those nine operations writes an argument array, so each argument is found as it was launched (`V_main_argK`).
  `iblk` is the block of a window's array that grid point `t` sees; an input window's staging buffer holds that block
  at every point, whether the pipeline fetched it there or kept it from the point before (`before_in`). `frame_of`
  turns a run whose post names every array into the statement that the eleven arguments end unchanged.
-/
import proofs.«112923_j85194971283756_1_alg».proof.Proof.Gen.KernelIdeal.Launch
import proofs.«112923_j85194971283756_1_alg».proof.Proof.Gen.KernelIdeal.Skeleton
import proofs.«112923_j85194971283756_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the call -/

/-- Core `c`'s buffers when the call is entered: the launch contents after the nine host operations. -/
abbrev V (c : Dev nD) (b : Ref sig .tc) : Buf (Elt F) ((c : Thread nD τ).loc b) :=
  StableHlo.after (List.flatten [hostOps0]) (fun b => m (c, b)) b

/-- No host operation allocates a buffer. -/
theorem hostOps0_fresh : (hostOps0 : List (HloOp τ sig (Elt F))).Forall fun op => op.fresh = ∅ := by
  simp only [List.Forall]; repeat' constructor

/-- @main is the nine host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- A buffer that none of the nine operations writes is found as launched: the operations write `main_v0` … `main_v8`. -/
theorem V_of_unwritten (c : Dev nD) (b : Ref sig .tc)
    (h0 : b ≠ main_v0) (h1 : b ≠ main_v1) (h2 : b ≠ main_v2) (h3 : b ≠ main_v3) (h4 : b ≠ main_v4)
    (h5 : b ≠ main_v5) (h6 : b ≠ main_v6) (h7 : b ≠ main_v7) (h8 : b ≠ main_v8) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8⟩))

theorem V_main_arg0 (c : Dev nD) : V m c main_arg0 = m ((c : Thread nD τ).loc main_arg0) :=
  V_of_unwritten m c _ (by decide) (by decide) (by decide) (by decide) (by decide) (by decide) (by decide) (by decide) (by decide)
theorem V_main_arg1 (c : Dev nD) : V m c main_arg1 = m ((c : Thread nD τ).loc main_arg1) :=
  V_of_unwritten m c _ (by decide) (by decide) (by decide) (by decide) (by decide) (by decide) (by decide) (by decide) (by decide)
theorem V_main_arg2 (c : Dev nD) : V m c main_arg2 = m ((c : Thread nD τ).loc main_arg2) :=
  V_of_unwritten m c _ (by decide) (by decide) (by decide) (by decide) (by decide) (by decide) (by decide) (by decide) (by decide)
theorem V_main_arg3 (c : Dev nD) : V m c main_arg3 = m ((c : Thread nD τ).loc main_arg3) :=
  V_of_unwritten m c _ (by decide) (by decide) (by decide) (by decide) (by decide) (by decide) (by decide) (by decide) (by decide)
theorem V_main_arg4 (c : Dev nD) : V m c main_arg4 = m ((c : Thread nD τ).loc main_arg4) :=
  V_of_unwritten m c _ (by decide) (by decide) (by decide) (by decide) (by decide) (by decide) (by decide) (by decide) (by decide)
theorem V_main_arg5 (c : Dev nD) : V m c main_arg5 = m ((c : Thread nD τ).loc main_arg5) :=
  V_of_unwritten m c _ (by decide) (by decide) (by decide) (by decide) (by decide) (by decide) (by decide) (by decide) (by decide)
theorem V_main_arg6 (c : Dev nD) : V m c main_arg6 = m ((c : Thread nD τ).loc main_arg6) :=
  V_of_unwritten m c _ (by decide) (by decide) (by decide) (by decide) (by decide) (by decide) (by decide) (by decide) (by decide)
theorem V_main_arg7 (c : Dev nD) : V m c main_arg7 = m ((c : Thread nD τ).loc main_arg7) :=
  V_of_unwritten m c _ (by decide) (by decide) (by decide) (by decide) (by decide) (by decide) (by decide) (by decide) (by decide)
theorem V_main_arg8 (c : Dev nD) : V m c main_arg8 = m ((c : Thread nD τ).loc main_arg8) :=
  V_of_unwritten m c _ (by decide) (by decide) (by decide) (by decide) (by decide) (by decide) (by decide) (by decide) (by decide)
theorem V_main_arg9 (c : Dev nD) : V m c main_arg9 = m ((c : Thread nD τ).loc main_arg9) :=
  V_of_unwritten m c _ (by decide) (by decide) (by decide) (by decide) (by decide) (by decide) (by decide) (by decide) (by decide)
theorem V_main_arg10 (c : Dev nD) : V m c main_arg10 = m ((c : Thread nD τ).loc main_arg10) :=
  V_of_unwritten m c _ (by decide) (by decide) (by decide) (by decide) (by decide) (by decide) (by decide) (by decide) (by decide)

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the inputs' rows): its current staging buffer holds its block at every point, fetched there or
    kept from the point before (then the block index has not moved), for any proof data over the entry contents
    whose body leaves the block in place. The five lemmas after it say the same of the other input windows. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame property from a run that names the arrays -/

/-- For any proof data over the entry contents, a run of @main to the pipeline's frame post leaves the eleven
    arguments as launched: the three staged inputs by the library's reading of an input window's array, the eight
    weight and bias arrays (which no window stages) by the post's clause for the other buffers. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

end Cert.KernelIdeal.Entry

end
-- ==== Proof.KI.Body.lean ====
/-
  One grid point of the kernel, as a triple.

  The body reads its six input blocks whole (a 256-row tile of the inputs, of the hidden state and of the cell state;
  the two transposed weight halves; the bias row), computes the four gate pre-activations as one [256, 4096] tile,
  and stores the new hidden tile and the new cell tile, each whole. It also loads each output buffer once before
  storing into it; those values are dropped. So after the body each output buffer holds one piece, the stored payload
  of the six loaded blocks (`outH`, `outC`), and the input buffers are as found.
-/
import proofs.«112923_j85194971283756_1_alg».proof.Proof.Gen.KernelIdeal.Launch
import proofs.«112923_j85194971283756_1_alg».proof.Proof.Gen.KernelIdeal.Skeleton
import proofs.«112923_j85194971283756_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every load and store takes its buffer whole -/

/-- A whole [256, 1024] tile. -/
abbrev rTile : Rect S256x1024 := Rect.unit (s := S256x1024) ![0, 0] S256x1024.size inb_S256x1024_S256x1024_0_0
/-- A whole transposed weight half. -/
abbrev rW : Rect S1024x4096 := Rect.unit (s := S1024x4096) ![0, 0] S1024x4096.size inb_S1024x4096_S1024x4096_0_0
/-- The whole bias row. -/
abbrev rB : Rect S1x4096 := Rect.unit (s := S1x4096) ![0, 0] S1x4096.size inb_S1x4096_S1x4096_0_0

/-! ## What the body leaves in each output buffer -/

/-- The new hidden tile: the one store into the first output buffer, as a piece over the loaded blocks. -/
def outH (x h cp : Vec F S256x1024 .f32) (wa wb : Vec F S1024x4096 .bf16) (b : Vec F S1x4096 .f32) : Vec F S256x1024 .f32 :=
  View.canon [⟨rTile, k0_pay3 (View.ld x rTile) (View.ld h rTile) (View.ld wa rW) (View.ld wb rW) (View.ld b rB) (View.ld cp rTile)⟩]

/-- The new cell tile: the one store into the second output buffer. -/
def outC (x h cp : Vec F S256x1024 .f32) (wa wb : Vec F S1024x4096 .bf16) (b : Vec F S1x4096 .f32) : Vec F S256x1024 .f32 :=
  View.canon [⟨rTile, k0_pay2 (View.ld x rTile) (View.ld h rTile) (View.ld wa rW) (View.ld wb rW) (View.ld b rB) (View.ld cp rTile)⟩]

/-- One whole-tile store covers the tile. -/
theorem cover_tile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The triple -/

set_option maxHeartbeats 1000000 in
/-- On whole staging buffers, the inputs' at contents `x`, `h`, `cp`, `wa`, `wb`, `b` and the outputs' at anything, the
    body runs to a continuation that is handed the inputs' as they were and the outputs' at `outH` and `outC`. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h cp : Vec F S256x1024 .f32) (wa wb : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wa ∗ owns (c : Thread nD τ) arg5 fullShare wb ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wa ∗ owns (c : Thread nD τ) arg5 fullShare wb ∗ owns (c : Thread nD τ) arg6 fullShare b
            ∗ owns (c : Thread nD τ) arg7 fullShare (outH x h cp wa wb b) ∗ owns (c : Thread nD τ) arg8 fullShare (outC x h cp wa wb b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

end Cert.KernelIdeal.Body

end
-- ==== Proof.KI.Run.lean ====
/-
  The kernel program's run: the pipeline's proof data, the body obligation at every grid point, and the
  run of @main that names every array afterwards.

  The proof data say what each staging buffer holds after the body at point `t`: an input's buffer its block
  (`Entry.iblk`), the two outputs' buffers the new hidden and cell tiles of the six input blocks at `t`
  (`Body.outH`, `Body.outC`). With them the body's triple (`Body.sound_kernel`) is the obligation the launch
  theorem asks at each point, and the launch theorem gives the run; `frame` reads the frame property off it.
-/
import proofs.«112923_j85194971283756_1_alg».proof.Proof.KI.Entry
import proofs.«112923_j85194971283756_1_alg».proof.Proof.KI.Body

set_option maxRecDepth 16384

noncomputable section

namespace Cert.KernelIdeal.Run

open Cert.KernelIdeal Cert.KernelIdeal.Gen Cert.KernelIdeal.Entry Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the call finds them; after the body at point `t` each input's buffer at its block and each output's
    at the tile the body stored; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after7 (c : Dev nD) (t : Fin cfg0.N) : (dats m 0 c).after 7 t
    = outC (iblk m c 0 t) (iblk m c 1 t) (iblk m c 2 t) (iblk m c 3 t) (iblk m c 4 t) (iblk m c 5 t) := by dsimp only [dats]

/-- Each input's current staging buffer holds its block at every point. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The obligation the launch asks, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data and every other unscoped buffer as
    the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere and leaves its eleven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Run

end
-- ==== Proof.Spec.lean ====
/-
  The LSTM cell as one function of its argument arrays, element by element, over the extended reals.

  With `x` the inputs, `h` the previous hidden state and `cp` the previous cell state (each [R, 1024]: R rows, the
  whole batch or one tile of it), `wa` and `wb` the two transposed halves [1024, 4096] of the stacked gate weights and
  `b` the stacked bias as one row [1, 4096], the gate pre-activation of row `p` at stacked column `n` is

      z p n = (Σ_k x[p,k] · wa[k,n]  +  Σ_k h[p,k] · wb[k,n])  +  b[0,n],

  the four gates sit side by side in the stacked axis (input, forget, cell, output: column `g · 1024 + q`), and

      c'[p,q] = σ(z p (1024 + q)) · cp[p,q]  +  σ(z p q) · tanh(z p (2048 + q)),
      h'[p,q] = σ(z p (3072 + q)) · tanh(c'[p,q]).

  `waOf`, `wbOf` and `rowOf` say how the two halves and the row are read off the stacked [4096, 2048] weights and the
  stacked [4096] bias: the half that meets the inputs is columns 0..1023, the half that meets the hidden state is
  columns 1024..2047, both transposed.
-/
import Idealize.ShloMosaic.PureOps.Ideal
import Idealize.ShloMosaic.Lib.ValueIdx

noncomputable section

open scoped BigOperators

namespace Lstm

open Idealize.ShloMosaic Idealize.ShloMosaic.ValueIdx

/-- R rows of width 1024. -/
abbrev STile (R : Nat) : Shape := ⟨2, ![R, 1024]⟩
/-- A transposed half of the stacked weights. -/
abbrev SWT : Shape := ⟨2, ![1024, 4096]⟩
/-- The stacked bias as one row. -/
abbrev SRow : Shape := ⟨2, ![1, 4096]⟩
/-- The stacked weights: four gates of 1024 rows, inputs' columns then hidden state's. -/
abbrev SWcat : Shape := ⟨2, ![4096, 2048]⟩
/-- The stacked bias. -/
abbrev SBcat : Shape := ⟨1, ![4096]⟩

/-- Column `q` of gate `g` in the stacked axis. -/
def col (g : Fin 4) (q : Fin 1024) : Fin 4096 := ⟨g.val * 1024 + q.val, by have := g.isLt; have := q.isLt; omega⟩

/-- The gate pre-activation of row `p` at stacked column `n`. -/
def gatePre {R : Nat} (x h : (STile R).Idx → EReal) (wa wb : SWT.Idx → EReal) (b : SRow.Idx → EReal)
    (p : Fin R) (n : Fin 4096) : EReal :=
  (∑ k : Fin 1024, x (ix2 p k) * wa (ix2 k n) + ∑ k : Fin 1024, h (ix2 p k) * wb (ix2 k n)) + b (ix2 (0 : Fin 1) n)

/-- The new cell state. -/
def cellNext {R : Nat} (x h cp : (STile R).Idx → EReal) (wa wb : SWT.Idx → EReal) (b : SRow.Idx → EReal) :
    (STile R).Idx → EReal := fun j =>
  Ideal.logistic (gatePre x h wa wb b (j 0) (col 1 (j 1))) * cp j
    + Ideal.logistic (gatePre x h wa wb b (j 0) (col 0 (j 1))) * Ideal.tanh (gatePre x h wa wb b (j 0) (col 2 (j 1)))

/-- The new hidden state. -/
def hiddenNext {R : Nat} (x h cp : (STile R).Idx → EReal) (wa wb : SWT.Idx → EReal) (b : SRow.Idx → EReal) :
    (STile R).Idx → EReal := fun j =>
  Ideal.logistic (gatePre x h wa wb b (j 0) (col 3 (j 1))) * Ideal.tanh (cellNext x h cp wa wb b j)

/-- The half of the stacked weights that meets the inputs, transposed: entry (k, n) is stacked row n, column k. -/
def waOf (W : SWcat.Idx → EReal) : SWT.Idx → EReal := fun j =>
  W (ix2 (j 1) (⟨(j 0).val, by have := (j 0).isLt; simp at this; omega⟩ : Fin 2048))

/-- The half that meets the hidden state, transposed: entry (k, n) is stacked row n, column 1024 + k. -/
def wbOf (W : SWcat.Idx → EReal) : SWT.Idx → EReal := fun j =>
  W (ix2 (j 1) (⟨1024 + (j 0).val, by have := (j 0).isLt; simp at this; omega⟩ : Fin 2048))

/-- The stacked bias as a row. -/
def rowOf (b : SBcat.Idx → EReal) : SRow.Idx → EReal := fun j => b (ix1 (j 1))

/-! ## The same, read at an index given by its coordinates -/

theorem cellNext_apply {R : Nat} (x h cp : (STile R).Idx → EReal) (wa wb : SWT.Idx → EReal) (b : SRow.Idx → EReal)
    (p : Fin R) (q : Fin 1024) :
    cellNext x h cp wa wb b (ix2 p q)
      = Ideal.logistic (gatePre x h wa wb b p (col 1 q)) * cp (ix2 p q)
        + Ideal.logistic (gatePre x h wa wb b p (col 0 q)) * Ideal.tanh (gatePre x h wa wb b p (col 2 q)) := rfl

theorem hiddenNext_apply {R : Nat} (x h cp : (STile R).Idx → EReal) (wa wb : SWT.Idx → EReal) (b : SRow.Idx → EReal)
    (p : Fin R) (q : Fin 1024) :
    hiddenNext x h cp wa wb b (ix2 p q)
      = Ideal.logistic (gatePre x h wa wb b p (col 3 q)) * Ideal.tanh (cellNext x h cp wa wb b (ix2 p q)) := rfl

theorem waOf_apply (W : SWcat.Idx → EReal) (k : Fin 1024) (n : Fin 4096) :
    waOf W (ix2 k n) = W (ix2 n (⟨k.val, by have := k.isLt; omega⟩ : Fin 2048)) := rfl

theorem wbOf_apply (W : SWcat.Idx → EReal) (k : Fin 1024) (n : Fin 4096) :
    wbOf W (ix2 k n) = W (ix2 n (⟨1024 + k.val, by have := k.isLt; omega⟩ : Fin 2048)) := rfl

theorem rowOf_apply (b : SBcat.Idx → EReal) (z : Fin 1) (n : Fin 4096) : rowOf b (ix2 z n) = b (ix1 n) := rfl

end Lstm

end
-- ==== Proof.KI.Payload.lean ====
/-
  One grid point's arithmetic is the LSTM cell of the six loaded blocks.

  The body's two stored values, as pure functions of the blocks it loads (a 256-row tile of the inputs, of the hidden
  state and of the cell state; the two transposed weight halves; the bias row), are `Lstm.cellNext` and
  `Lstm.hiddenNext` at 256 rows: each matrix product into a zero accumulator is a plain sum over the 1024 contracted
  columns, the narrowing to bf16 is the identity over the extended reals, the bias row is repeated down the 256 rows,
  and the four gates are the four column ranges of width 1024.
-/
import proofs.«112923_j85194971283756_1_alg».proof.Proof.Gen.KernelIdeal.Skeleton
import proofs.«112923_j85194971283756_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- The left operand's row is the output's row. -/
private theorem lhs_ax0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
/-- The left operand's column is the contracted index. -/
private theorem lhs_ax1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
/-- The right operand's row is the contracted index. -/
private theorem rhs_ax0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
/-- The right operand's column is the output's column. -/
private theorem rhs_ax1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A product into the zero accumulator, read at row p and column n, is the sum over the 1024 contracted columns. -/
private theorem mm_apply (a : FVec Ideal S256x1024 .bf16) (w : FVec Ideal S1024x4096 .bf16) (p : Fin 256) (n : Fin 4096) :
    matmul dot_S256x1024_S1024x4096_S256x4096_1_0_0_1_n_n none a w (constant (F := Ideal) S256x4096 .f32 0x00000000#32) (ix2 p n)
      = ∑ k : Fin 1024, a (ix2 p k) * w (ix2 k n) := by
  refine (Ideal.matmul_constant_zero_apply dot_S256x1024_S1024x4096_S256x4096_1_0_0_1_n_n none a w (ix2 p n)).trans ?_
  rw [← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p n) ((contrEquiv1 dot_S256x1024_S1024x4096_S256x4096_1_0_0_1_n_n 1024 rfl rfl).symm k) = ix2 p k := funext fun a => Fin.ext (by
    match a with
    | ⟨0, _⟩ => exact lhs_ax0 _ _
    | ⟨1, _⟩ => exact (lhs_ax1 _ _).trans hk)
  have er : dot_S256x1024_S1024x4096_S256x4096_1_0_0_1_n_n.rhsIdx (ix2 p n) ((contrEquiv1 dot_S256x1024_S1024x4096_S256x4096_1_0_0_1_n_n 1024 rfl rfl).symm k) = ix2 k n := funext fun a => Fin.ext (by
    match a with
    | ⟨0, _⟩ => exact (rhs_ax0 _ _).trans hk
    | ⟨1, _⟩ => exact rhs_ax1 _ _)
  rw [el, er]

/-- The bias row repeated down the rows, read at row p and column n, is the row's entry at column n. -/
private theorem bias_apply (b : FVec Ideal S1x4096 .f32) (p : Fin 256) (n : Fin 4096) :
    broadcastTo S256x4096 b broadcasts_S1x4096_S256x4096 (ix2 p n) = b (ix2 (0 : Fin 1) n) :=
  broadcastTo_apply b broadcasts_S1x4096_S256x4096 (ix2 p n) (ix2 (0 : Fin 1) n) (fun a => match a with
    | ⟨0, _⟩ => by show (0 : Nat) = if (1 : Nat) = 1 then 0 else _; rw [if_pos rfl]
    | ⟨1, _⟩ => by show n.val = if (4096 : Nat) = 1 then 0 else n.val; rw [if_neg (by decide)])

/-- The pre-activation tile at row p and stacked column n: the two sums over the contracted columns plus the bias. -/
private theorem pre_apply (x h : Vec Ideal S256x1024 .f32) (wa wb : Vec Ideal S1024x4096 .bf16) (b : Vec Ideal S1x4096 .f32)
    (p : Fin 256) (n : Fin 4096) :
    k0_pay1 (F := Ideal) x h wa wb b (ix2 p n) = Lstm.gatePre (R := 256) x h wa wb b p n := by
  unfold k0_pay1 Lstm.gatePre
  rw [shapeCast_self wa, shapeCast_self wb, shapeCast_self b]
  refine (addf_apply _ _ (ix2 p n)).trans ?_
  refine congrArg₂ (· + ·) ((addf_apply _ _ (ix2 p n)).trans (congrArg₂ (· + ·) ?_ ?_)) (bias_apply b p n)
  · exact mm_apply (truncf .bf16 x bitsLt_bf16_f32) wa p n
  · exact mm_apply (truncf .bf16 h bitsLt_bf16_f32) wb p n

/-- The column range of width 1024 at offset 0 of a [256, 4096] tile, read at row p and column q, is the tile at stacked column 0 + q. -/
private theorem slice0_apply (y : FVec Ideal S256x4096 .f32) (p : Fin 256) (q : Fin 1024) :
    extractStridedSlice S256x1024 ![0, 0] y slices_S256x4096_o0_0_S256x1024 (ix2 p q) = y (ix2 p (Lstm.col 0 q)) :=
  extractStridedSlice_apply ![0, 0] y slices_S256x4096_o0_0_S256x1024 (ix2 p q) (ix2 p (Lstm.col 0 q)) (fun a => match a with
    | ⟨0, _⟩ => by show p.val = 0 + p.val; omega
    | ⟨1, _⟩ => by show (Lstm.col 0 q).val = 0 + q.val; simp [Lstm.col])

/-- Gate 0 of the pre-activation tile at row p and column q. -/
private theorem gate0_apply (x h : Vec Ideal S256x1024 .f32) (wa wb : Vec Ideal S1024x4096 .bf16) (b : Vec Ideal S1x4096 .f32)
    (p : Fin 256) (q : Fin 1024) :
    extractStridedSlice S256x1024 ![0, 0] (k0_pay1 (F := Ideal) x h wa wb b) slices_S256x4096_o0_0_S256x1024 (ix2 p q)
      = Lstm.gatePre (R := 256) x h wa wb b p (Lstm.col 0 q) :=
  (slice0_apply _ p q).trans (pre_apply x h wa wb b p (Lstm.col 0 q))

/-- The column range of width 1024 at offset 1024 of a [256, 4096] tile, read at row p and column q, is the tile at stacked column 1024 + q. -/
private theorem slice1_apply (y : FVec Ideal S256x4096 .f32) (p : Fin 256) (q : Fin 1024) :
    extractStridedSlice S256x1024 ![0, 1024] y slices_S256x4096_o0_1024_S256x1024 (ix2 p q) = y (ix2 p (Lstm.col 1 q)) :=
  extractStridedSlice_apply ![0, 1024] y slices_S256x4096_o0_1024_S256x1024 (ix2 p q) (ix2 p (Lstm.col 1 q)) (fun a => match a with
    | ⟨0, _⟩ => by show p.val = 0 + p.val; omega
    | ⟨1, _⟩ => by show (Lstm.col 1 q).val = 1024 + q.val; simp [Lstm.col])

/-- Gate 1 of the pre-activation tile at row p and column q. -/
private theorem gate1_apply (x h : Vec Ideal S256x1024 .f32) (wa wb : Vec Ideal S1024x4096 .bf16) (b : Vec Ideal S1x4096 .f32)
    (p : Fin 256) (q : Fin 1024) :
    extractStridedSlice S256x1024 ![0, 1024] (k0_pay1 (F := Ideal) x h wa wb b) slices_S256x4096_o0_1024_S256x1024 (ix2 p q)
      = Lstm.gatePre (R := 256) x h wa wb b p (Lstm.col 1 q) :=
  (slice1_apply _ p q).trans (pre_apply x h wa wb b p (Lstm.col 1 q))

/-- The column range of width 1024 at offset 2048 of a [256, 4096] tile, read at row p and column q, is the tile at stacked column 2048 + q. -/
private theorem slice2_apply (y : FVec Ideal S256x4096 .f32) (p : Fin 256) (q : Fin 1024) :
    extractStridedSlice S256x1024 ![0, 2048] y slices_S256x4096_o0_2048_S256x1024 (ix2 p q) = y (ix2 p (Lstm.col 2 q)) :=
  extractStridedSlice_apply ![0, 2048] y slices_S256x4096_o0_2048_S256x1024 (ix2 p q) (ix2 p (Lstm.col 2 q)) (fun a => match a with
    | ⟨0, _⟩ => by show p.val = 0 + p.val; omega
    | ⟨1, _⟩ => by show (Lstm.col 2 q).val = 2048 + q.val; simp [Lstm.col])

/-- Gate 2 of the pre-activation tile at row p and column q. -/
private theorem gate2_apply (x h : Vec Ideal S256x1024 .f32) (wa wb : Vec Ideal S1024x4096 .bf16) (b : Vec Ideal S1x4096 .f32)
    (p : Fin 256) (q : Fin 1024) :
    extractStridedSlice S256x1024 ![0, 2048] (k0_pay1 (F := Ideal) x h wa wb b) slices_S256x4096_o0_2048_S256x1024 (ix2 p q)
      = Lstm.gatePre (R := 256) x h wa wb b p (Lstm.col 2 q) :=
  (slice2_apply _ p q).trans (pre_apply x h wa wb b p (Lstm.col 2 q))

/-- The column range of width 1024 at offset 3072 of a [256, 4096] tile, read at row p and column q, is the tile at stacked column 3072 + q. -/
private theorem slice3_apply (y : FVec Ideal S256x4096 .f32) (p : Fin 256) (q : Fin 1024) :
    extractStridedSlice S256x1024 ![0, 3072] y slices_S256x4096_o0_3072_S256x1024 (ix2 p q) = y (ix2 p (Lstm.col 3 q)) :=
  extractStridedSlice_apply ![0, 3072] y slices_S256x4096_o0_3072_S256x1024 (ix2 p q) (ix2 p (Lstm.col 3 q)) (fun a => match a with
    | ⟨0, _⟩ => by show p.val = 0 + p.val; omega
    | ⟨1, _⟩ => by show (Lstm.col 3 q).val = 3072 + q.val; simp [Lstm.col])

/-- Gate 3 of the pre-activation tile at row p and column q. -/
private theorem gate3_apply (x h : Vec Ideal S256x1024 .f32) (wa wb : Vec Ideal S1024x4096 .bf16) (b : Vec Ideal S1x4096 .f32)
    (p : Fin 256) (q : Fin 1024) :
    extractStridedSlice S256x1024 ![0, 3072] (k0_pay1 (F := Ideal) x h wa wb b) slices_S256x4096_o0_3072_S256x1024 (ix2 p q)
      = Lstm.gatePre (R := 256) x h wa wb b p (Lstm.col 3 q) :=
  (slice3_apply _ p q).trans (pre_apply x h wa wb b p (Lstm.col 3 q))

/-- The value the body stores into the cell-state output, of the loaded blocks. -/
theorem pay_cell (x h : Vec Ideal S256x1024 .f32) (wa wb : Vec Ideal S1024x4096 .bf16) (b : Vec Ideal S1x4096 .f32)
    (cp : Vec Ideal S256x1024 .f32) :
    k0_pay2 (F := Ideal) x h wa wb b cp = Lstm.cellNext (R := 256) x h cp wa wb b := by
  funext j
  obtain ⟨p, q, rfl⟩ : ∃ (p : Fin 256) (q : Fin 1024), j = ix2 p q := ⟨j 0, j 1, eq_ix2 j⟩
  rw [Lstm.cellNext_apply, ← gate0_apply x h wa wb b p q, ← gate1_apply x h wa wb b p q, ← gate2_apply x h wa wb b p q]
  rfl

/-- The value the body stores into the hidden-state output, of the loaded blocks. -/
theorem pay_hidden (x h : Vec Ideal S256x1024 .f32) (wa wb : Vec Ideal S1024x4096 .bf16) (b : Vec Ideal S1x4096 .f32)
    (cp : Vec Ideal S256x1024 .f32) :
    k0_pay3 (F := Ideal) x h wa wb b cp = Lstm.hiddenNext (R := 256) x h cp wa wb b := by
  funext j
  obtain ⟨p, q, rfl⟩ : ∃ (p : Fin 256) (q : Fin 1024), j = ix2 p q := ⟨j 0, j 1, eq_ix2 j⟩
  rw [Lstm.hiddenNext_apply, ← pay_cell x h wa wb b cp, ← gate3_apply x h wa wb b p q]
  rfl

end Cert.KernelIdeal.Payload

end
-- ==== Proof.KI.HostVals.lean ====
/-
  What the three arrays the host prepares for the call hold, at the ideal instance.

  The first weight operand is the stacked weights cut to their columns 0..1023 and transposed; the second is columns
  1024..2047, transposed; the third is the stacked bias laid out as one row. The narrowing of the two weight operands
  to bf16 is the identity over the extended reals. The 4-way stackings themselves are kept as they are printed
  (`Wcat`, `bcat`): the reference builds the same two arrays, so nothing here looks inside them.
-/
import proofs.«112923_j85194971283756_1_alg».proof.Proof.KI.Entry
import proofs.«112923_j85194971283756_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostVals

open Cert.KernelIdeal Cert.KernelIdeal.Gen Cert.KernelIdeal.Entry
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The four gate weight matrices stacked along the rows, as @main's first operation builds them. -/
def Wcat (c : Dev nD) : S4096x2048.Idx → EReal :=
  concatenate S4096x2048 0 [⟨S1024x2048, m ((c : Thread nD τ).loc main_arg3)⟩, ⟨S1024x2048, m ((c : Thread nD τ).loc main_arg5)⟩,
    ⟨S1024x2048, m ((c : Thread nD τ).loc main_arg7)⟩, ⟨S1024x2048, m ((c : Thread nD τ).loc main_arg9)⟩]
    Facts₀.concatenates_S1024x2048_S1024x2048_S1024x2048_S1024x2048_S4096x2048_d0

/-- The four gate biases stacked. -/
def bcat (c : Dev nD) : S4096.Idx → EReal :=
  concatenate S4096 0 [⟨S1024, m ((c : Thread nD τ).loc main_arg4)⟩, ⟨S1024, m ((c : Thread nD τ).loc main_arg6)⟩,
    ⟨S1024, m ((c : Thread nD τ).loc main_arg8)⟩, ⟨S1024, m ((c : Thread nD τ).loc main_arg10)⟩]
    Facts₀.concatenates_S1024_S1024_S1024_S1024_S4096_d0

/-- The first weight operand as the host operations' term. -/
theorem V_v5_term (c : Dev nD) : (V m c main_v5 : S1024x4096.Idx → EReal)
    = truncf (F := Ideal) .bf16 (transpose S1024x4096 [1, 0] (extractStridedSlice S4096x1024 ![0, 0] (Wcat m c) Facts₀.slices_S4096x2048_S4096x1024_0_0)
        Facts₀.transposes_S4096x1024_S1024x4096_1_0) Facts₀.bitsLt_bf16_f32 := by
  dsimp only [V]
  simp only [hostOps0, List.flatten_cons, List.flatten_nil, List.append_nil]
  after_results
  rfl

/-- The second weight operand as the host operations' term. -/
theorem V_v7_term (c : Dev nD) : (V m c main_v7 : S1024x4096.Idx → EReal)
    = truncf (F := Ideal) .bf16 (transpose S1024x4096 [1, 0] (extractStridedSlice S4096x1024 ![0, 1024] (Wcat m c) Facts₀.slices_S4096x2048_S4096x1024_0_1024)
        Facts₀.transposes_S4096x1024_S1024x4096_1_0) Facts₀.bitsLt_bf16_f32 := by
  dsimp only [V]
  simp only [hostOps0, List.flatten_cons, List.flatten_nil, List.append_nil]
  after_results
  rfl

/-- The bias operand as the host operations' term. -/
theorem V_v8_term (c : Dev nD) : (V m c main_v8 : S1x4096.Idx → EReal)
    = shapeCast S1x4096 (bcat m c) Facts₀.shapeCasts_S4096_S1x4096 := by
  dsimp only [V]
  simp only [hostOps0, List.flatten_cons, List.flatten_nil, List.append_nil]
  after_results
  rfl

/-- The first weight operand is the inputs' half of the stacked weights, transposed. -/
theorem V_v5 (c : Dev nD) : (V m c main_v5 : S1024x4096.Idx → EReal) = Lstm.waOf (Wcat m c) := by
  rw [V_v5_term]
  funext j
  obtain ⟨k, n, rfl⟩ : ∃ (k : Fin 1024) (n : Fin 4096), j = ix2 k n := ⟨j 0, j 1, eq_ix2 j⟩
  rw [Lstm.waOf_apply]
  refine (truncf_apply (ψ := .bf16) _ Facts₀.bitsLt_bf16_f32 (ix2 k n)).trans ?_
  refine (transpose_apply (s := S4096x1024) (t := S1024x4096) [1, 0] _ Facts₀.transposes_S4096x1024_S1024x4096_1_0 (ix2 k n) (ix2 n k) (fun b => match b with
    | ⟨0, _⟩ => rfl
    | ⟨1, _⟩ => rfl)).trans ?_
  exact extractStridedSlice_apply ![0, 0] (Wcat m c) Facts₀.slices_S4096x2048_S4096x1024_0_0 (ix2 n k) _ (fun a => match a with
    | ⟨0, _⟩ => by show n.val = 0 + n.val; omega
    | ⟨1, _⟩ => by show k.val = 0 + k.val; omega)

/-- The second weight operand is the hidden state's half of the stacked weights, transposed. -/
theorem V_v7 (c : Dev nD) : (V m c main_v7 : S1024x4096.Idx → EReal) = Lstm.wbOf (Wcat m c) := by
  rw [V_v7_term]
  funext j
  obtain ⟨k, n, rfl⟩ : ∃ (k : Fin 1024) (n : Fin 4096), j = ix2 k n := ⟨j 0, j 1, eq_ix2 j⟩
  rw [Lstm.wbOf_apply]
  refine (truncf_apply (ψ := .bf16) _ Facts₀.bitsLt_bf16_f32 (ix2 k n)).trans ?_
  refine (transpose_apply (s := S4096x1024) (t := S1024x4096) [1, 0] _ Facts₀.transposes_S4096x1024_S1024x4096_1_0 (ix2 k n) (ix2 n k) (fun b => match b with
    | ⟨0, _⟩ => rfl
    | ⟨1, _⟩ => rfl)).trans ?_
  exact extractStridedSlice_apply ![0, 1024] (Wcat m c) Facts₀.slices_S4096x2048_S4096x1024_0_1024 (ix2 n k) _ (fun a => match a with
    | ⟨0, _⟩ => by show n.val = 0 + n.val; omega
    | ⟨1, _⟩ => by show 1024 + k.val = 1024 + k.val; rfl)

/-- The bias operand is the stacked bias as one row. -/
theorem V_v8 (c : Dev nD) : (V m c main_v8 : S1x4096.Idx → EReal) = Lstm.rowOf (bcat m c) := by
  rw [V_v8_term]
  funext j
  obtain ⟨z, n, rfl⟩ : ∃ (z : Fin 1) (n : Fin 4096), j = ix2 z n := ⟨j 0, j 1, eq_ix2 j⟩
  rw [Lstm.rowOf_apply]
  refine shapeCast_apply (bcat m c) Facts₀.shapeCasts_S4096_S1x4096 (ix2 z n) (ix1 n) ?_
  rw [Shape.rowMajor_val_two]
  have hz : z.val = 0 := by have := z.isLt; omega
  show (Shape.rowMajor S4096 (ix1 n)).val = z.val * 4096 + n.val
  rw [hz]
  simp [Shape.rowMajor_val_one]

end Cert.KernelIdeal.HostVals

end
-- ==== Proof.SpecRows.lean ====
/-
  The LSTM cell is computed row by row: an entry of the new cell or hidden state depends on the inputs, the hidden
  state and the cell state only through the entry's own row. So two batches (of any two heights) that agree on a
  pair of rows give the same results on that pair of rows. This is what lets one 256-row tile stand for its rows of
  the whole batch.
-/
import proofs.«112923_j85194971283756_1_alg».proof.Proof.Spec

noncomputable section

open scoped BigOperators

namespace Lstm

open Idealize.ShloMosaic Idealize.ShloMosaic.ValueIdx

variable {R R' : Nat} (x h cp : (STile R).Idx → EReal) (x' h' cp' : (STile R').Idx → EReal)
  (wa wb : SWT.Idx → EReal) (b : SRow.Idx → EReal) (p : Fin R) (p' : Fin R')

theorem gatePre_rows (hx : ∀ k : Fin 1024, x (ix2 p k) = x' (ix2 p' k)) (hh : ∀ k : Fin 1024, h (ix2 p k) = h' (ix2 p' k))
    (n : Fin 4096) : gatePre x h wa wb b p n = gatePre x' h' wa wb b p' n := by
  unfold gatePre
  simp only [hx, hh]

theorem cellNext_rows (hx : ∀ k : Fin 1024, x (ix2 p k) = x' (ix2 p' k)) (hh : ∀ k : Fin 1024, h (ix2 p k) = h' (ix2 p' k))
    (hc : ∀ q : Fin 1024, cp (ix2 p q) = cp' (ix2 p' q)) (q : Fin 1024) :
    cellNext x h cp wa wb b (ix2 p q) = cellNext x' h' cp' wa wb b (ix2 p' q) := by
  rw [cellNext_apply, cellNext_apply, hc q, gatePre_rows x h x' h' wa wb b p p' hx hh, gatePre_rows x h x' h' wa wb b p p' hx hh,
    gatePre_rows x h x' h' wa wb b p p' hx hh]

theorem hiddenNext_rows (hx : ∀ k : Fin 1024, x (ix2 p k) = x' (ix2 p' k)) (hh : ∀ k : Fin 1024, h (ix2 p k) = h' (ix2 p' k))
    (hc : ∀ q : Fin 1024, cp (ix2 p q) = cp' (ix2 p' q)) (q : Fin 1024) :
    hiddenNext x h cp wa wb b (ix2 p q) = hiddenNext x' h' cp' wa wb b (ix2 p' q) := by
  rw [hiddenNext_apply, hiddenNext_apply, cellNext_rows x h cp x' h' cp' wa wb b p p' hx hh hc q,
    gatePre_rows x h x' h' wa wb b p p' hx hh]

end Lstm

end
-- ==== Proof.KI.Final.lean ====
/-
  The two result arrays after the idealized kernel program's run, as the LSTM cell of the argument arrays.

  Grid point `t` handles rows 256·t … 256·t + 255 of the batch: its three tiled input blocks are those rows of the
  inputs, the hidden state and the cell state, its three other input blocks are the whole weight halves and bias row
  (the same at every point), and the tile it writes back to each result is those rows of the result. The cell is
  computed row by row, so the tile computed from the blocks is those rows of the cell computed from the whole arrays
  (`flushedC_eq`, `flushedH_eq`); the sixteen tiles cover all 4096 rows (`covered`); so each result array is the cell
  of the whole arrays (`finalC`, `finalH`).
-/
import proofs.«112923_j85194971283756_1_alg».proof.Proof.KI.Run
import proofs.«112923_j85194971283756_1_alg».proof.Proof.KI.Payload
import proofs.«112923_j85194971283756_1_alg».proof.Proof.KI.HostVals
import proofs.«112923_j85194971283756_1_alg».proof.Proof.SpecRows
import Idealize.ShloMosaic.Lib.Pipeline.Value

set_option maxRecDepth 16384

noncomputable section

namespace Cert.KernelIdeal.Final

open Cert.KernelIdeal Cert.KernelIdeal.Gen Cert.KernelIdeal.Entry Cert.KernelIdeal.Body Cert.KernelIdeal.Run
open Cert.KernelIdeal.HostVals
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The arrays and the blocks, named at their literal types -/

abbrev xArr (c : Dev nD) : (Lstm.STile 4096).Idx → EReal := V m c main_arg0
abbrev hArr (c : Dev nD) : (Lstm.STile 4096).Idx → EReal := V m c main_arg1
abbrev cArr (c : Dev nD) : (Lstm.STile 4096).Idx → EReal := V m c main_arg2
abbrev waArr (c : Dev nD) : Lstm.SWT.Idx → EReal := V m c main_v5
abbrev wbArr (c : Dev nD) : Lstm.SWT.Idx → EReal := V m c main_v7
abbrev bArr (c : Dev nD) : Lstm.SRow.Idx → EReal := V m c main_v8

abbrev xBlk (c : Dev nD) (t : Fin cfg0.N) : (Lstm.STile 256).Idx → EReal := iblk m c 0 t
abbrev hBlk (c : Dev nD) (t : Fin cfg0.N) : (Lstm.STile 256).Idx → EReal := iblk m c 1 t
abbrev cBlk (c : Dev nD) (t : Fin cfg0.N) : (Lstm.STile 256).Idx → EReal := iblk m c 2 t
abbrev waBlk (c : Dev nD) (t : Fin cfg0.N) : Lstm.SWT.Idx → EReal := iblk m c 3 t
abbrev wbBlk (c : Dev nD) (t : Fin cfg0.N) : Lstm.SWT.Idx → EReal := iblk m c 4 t
abbrev bBlk (c : Dev nD) (t : Fin cfg0.N) : Lstm.SRow.Idx → EReal := iblk m c 5 t

/-- The cell state and the hidden state the whole arrays give. -/
def GC (c : Dev nD) : (Lstm.STile 4096).Idx → EReal :=
  Lstm.cellNext (R := 4096) (xArr m c) (hArr m c) (cArr m c) (waArr m c) (wbArr m c) (bArr m c)
def GH (c : Dev nD) : (Lstm.STile 4096).Idx → EReal :=
  Lstm.hiddenNext (R := 4096) (xArr m c) (hArr m c) (cArr m c) (waArr m c) (wbArr m c) (bArr m c)

/-! ## The index maps, decided over the sixteen points -/

theorem hz : (![0, 0] : Fin 2 → Nat) = fun _ => 0 := funext fun a => by fin_cases a <;> rfl

/-- The five tiled windows sit at block (t, 0); the three whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s tile, as a row of the batch. -/
def row (t : Fin cfg0.N) (p : Fin 256) : Fin 4096 :=
  ⟨t.val * 256 + p.val, by have : t.val < 16 := lt_of_lt_of_eq t.isLt N_0; have := p.isLt; omega⟩

/-! ## The blocks read off the arrays -/

theorem xBlk_apply (c : Dev nD) (t : Fin cfg0.N) (p : Fin 256) (k : Fin 1024) :
    xBlk m c t (ix2 p k) = xArr m c (ix2 (row t p) k) := by
  obtain ⟨e0, e1, -⟩ := idx_facts t
  show V m c main_arg0 (((cfg0.win 0).blk t).view.emb (ix2 p k)) = V m c main_arg0 (ix2 (row t p) k)
  refine congrArg _ (funext fun a => Fin.ext ?_)
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

theorem hBlk_apply (c : Dev nD) (t : Fin cfg0.N) (p : Fin 256) (k : Fin 1024) :
    hBlk m c t (ix2 p k) = hArr m c (ix2 (row t p) k) := by
  obtain ⟨-, -, e0, e1, -⟩ := idx_facts t
  show V m c main_arg1 (((cfg0.win 1).blk t).view.emb (ix2 p k)) = V m c main_arg1 (ix2 (row t p) k)
  refine congrArg _ (funext fun a => Fin.ext ?_)
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

theorem cBlk_apply (c : Dev nD) (t : Fin cfg0.N) (p : Fin 256) (k : Fin 1024) :
    cBlk m c t (ix2 p k) = cArr m c (ix2 (row t p) k) := by
  obtain ⟨-, -, -, -, e0, e1, -⟩ := idx_facts t
  show V m c main_arg2 (((cfg0.win 2).blk t).view.emb (ix2 p k)) = V m c main_arg2 (ix2 (row t p) k)
  refine congrArg _ (funext fun a => Fin.ext ?_)
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

theorem waBlk_eq (c : Dev nD) (t : Fin cfg0.N) : waBlk m c t = waArr m c := by
  obtain ⟨-, -, -, -, -, -, e0, e1, -⟩ := idx_facts t
  funext y
  show V m c main_v5 (((cfg0.win 3).blk t).view.emb y) = V m c main_v5 y
  refine congrArg _ (funext fun a => Fin.ext ?_)
  match a with
  | ⟨0, _⟩ => show win0_3.index t (0 : Fin 2) * 1024 + 1 * (y 0).val = (y 0).val; rw [e0]; omega
  | ⟨1, _⟩ => show win0_3.index t (1 : Fin 2) * 4096 + 1 * (y 1).val = (y 1).val; rw [e1]; omega

theorem wbBlk_eq (c : Dev nD) (t : Fin cfg0.N) : wbBlk m c t = wbArr m c := by
  obtain ⟨-, -, -, -, -, -, -, -, e0, e1, -⟩ := idx_facts t
  funext y
  show V m c main_v7 (((cfg0.win 4).blk t).view.emb y) = V m c main_v7 y
  refine congrArg _ (funext fun a => Fin.ext ?_)
  match a with
  | ⟨0, _⟩ => show win0_4.index t (0 : Fin 2) * 1024 + 1 * (y 0).val = (y 0).val; rw [e0]; omega
  | ⟨1, _⟩ => show win0_4.index t (1 : Fin 2) * 4096 + 1 * (y 1).val = (y 1).val; rw [e1]; omega

theorem bBlk_eq (c : Dev nD) (t : Fin cfg0.N) : bBlk m c t = bArr m c := by
  obtain ⟨-, -, -, -, -, -, -, -, -, -, e0, e1, -⟩ := idx_facts t
  funext y
  show V m c main_v8 (((cfg0.win 5).blk t).view.emb y) = V m c main_v8 y
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 4096 + 1 * (y 1).val = (y 1).val; rw [e1]; omega

/-! ## A tile of the cell is the cell's rows -/

theorem cell_tile (c : Dev nD) (t : Fin cfg0.N) (p : Fin 256) (q : Fin 1024) :
    Lstm.cellNext (R := 256) (xBlk m c t) (hBlk m c t) (cBlk m c t) (waBlk m c t) (wbBlk m c t) (bBlk m c t) (ix2 p q)
      = GC m c (ix2 (row t p) q) := by
  rw [waBlk_eq, wbBlk_eq, bBlk_eq]
  exact Lstm.cellNext_rows _ _ _ _ _ _ _ _ _ p (row t p) (xBlk_apply m c t p) (hBlk_apply m c t p) (cBlk_apply m c t p) q

theorem hidden_tile (c : Dev nD) (t : Fin cfg0.N) (p : Fin 256) (q : Fin 1024) :
    Lstm.hiddenNext (R := 256) (xBlk m c t) (hBlk m c t) (cBlk m c t) (waBlk m c t) (wbBlk m c t) (bBlk m c t) (ix2 p q)
      = GH m c (ix2 (row t p) q) := by
  rw [waBlk_eq, wbBlk_eq, bBlk_eq]
  exact Lstm.hiddenNext_rows _ _ _ _ _ _ _ _ _ p (row t p) (xBlk_apply m c t p) (hBlk_apply m c t p) (cBlk_apply m c t p) q

theorem cell_tile' (c : Dev nD) (t : Fin cfg0.N) (y : (Lstm.STile 256).Idx) :
    Lstm.cellNext (R := 256) (xBlk m c t) (hBlk m c t) (cBlk m c t) (waBlk m c t) (wbBlk m c t) (bBlk m c t) y
      = GC m c (ix2 (row t (y 0)) (y 1)) := by
  rw [eq_ix2 y]; exact cell_tile m c t (y 0) (y 1)

theorem hidden_tile' (c : Dev nD) (t : Fin cfg0.N) (y : (Lstm.STile 256).Idx) :
    Lstm.hiddenNext (R := 256) (xBlk m c t) (hBlk m c t) (cBlk m c t) (waBlk m c t) (wbBlk m c t) (bBlk m c t) y
      = GH m c (ix2 (row t (y 0)) (y 1)) := by
  rw [eq_ix2 y]; exact hidden_tile m c t (y 0) (y 1)

/-! ## What each point writes back -/

/-- Point `t` writes back to the cell-state result rows 256·t … of the cell of the whole arrays. -/
theorem flushedC_eq (c : Dev nD) (t : Fin cfg0.N) :
    (dats m 0 c).flushed 7 t = ((cfg0.win 7).blk t).view.read (Elt Ideal) (GC m c) := by
  obtain ⟨-, -, -, -, -, -, -, -, -, -, -, -, -, -, e0, e1⟩ := idx_facts t
  show (cfg0.win 7).cut (grid0.coords t) ((dats m 0 c).after 7 t) = _
  rw [after7]
  unfold outC
  rw [View.canon_unit_zero hz]
  simp only [View.ld_unit_zero (S := S256x1024) hz, View.ld_unit_zero (S := S1024x4096) hz, View.ld_unit_zero (S := S1x4096) hz]
  rw [Payload.pay_cell]
  refine funext fun (j : (Lstm.STile 256).Idx) => ?_
  show Lstm.cellNext (R := 256) (xBlk m c t) (hBlk m c t) (cBlk m c t) (waBlk m c t) (wbBlk m c t) (bBlk m c t) j
    = GC m c (((cfg0.win 7).blk t).view.emb j)
  refine (cell_tile' m c t j).trans (congrArg _ (funext fun a => Fin.ext ?_))
  match a with
  | ⟨0, _⟩ => show t.val * 256 + (j 0).val = win0_7.index t (0 : Fin 2) * 256 + 1 * (j 0).val; rw [e0]; omega
  | ⟨1, _⟩ => show (j 1).val = win0_7.index t (1 : Fin 2) * 1024 + 1 * (j 1).val; rw [e1]; omega

/-- Point `t` writes back to the hidden-state result rows 256·t … of the hidden state of the whole arrays. -/
theorem flushedH_eq (c : Dev nD) (t : Fin cfg0.N) :
    (dats m 0 c).flushed 6 t = ((cfg0.win 6).blk t).view.read (Elt Ideal) (GH m c) := by
  obtain ⟨-, -, -, -, -, -, -, -, -, -, -, -, e0, e1, -⟩ := idx_facts t
  show (cfg0.win 6).cut (grid0.coords t) ((dats m 0 c).after 6 t) = _
  rw [after6]
  unfold outH
  rw [View.canon_unit_zero hz]
  simp only [View.ld_unit_zero (S := S256x1024) hz, View.ld_unit_zero (S := S1024x4096) hz, View.ld_unit_zero (S := S1x4096) hz]
  rw [Payload.pay_hidden]
  refine funext fun (j : (Lstm.STile 256).Idx) => ?_
  show Lstm.hiddenNext (R := 256) (xBlk m c t) (hBlk m c t) (cBlk m c t) (waBlk m c t) (wbBlk m c t) (bBlk m c t) j
    = GH m c (((cfg0.win 6).blk t).view.emb j)
  refine (hidden_tile' m c t j).trans (congrArg _ (funext fun a => Fin.ext ?_))
  match a with
  | ⟨0, _⟩ => show t.val * 256 + (j 0).val = win0_6.index t (0 : Fin 2) * 256 + 1 * (j 0).val; rw [e0]; omega
  | ⟨1, _⟩ => show (j 1).val = win0_6.index t (1 : Fin 2) * 1024 + 1 * (j 1).val; rw [e1]; omega

/-! ## The sixteen tiles cover the batch -/

theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v9_0).slice (win0_6.rect t)).set ↔ _
  rw [View.set_slice_whole, Rect.mem_set_unit]
  exact Iff.rfl

theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v9_1).slice (win0_7.rect t)).set ↔ _
  rw [View.set_slice_whole, Rect.mem_set_unit]
  exact Iff.rfl

/-- Row r lies in the tile of point r / 256. -/
def pointOf (i : S4096x1024.Idx) : Fin cfg0.N :=
  ⟨(i 0).val / 256, lt_of_lt_of_eq (by have : (i 0).val < 4096 := idx2_lt0 i; omega : (i 0).val / 256 < 16) N_0.symm⟩

theorem covered6 (i : S4096x1024.Idx) : ∃ t : Fin cfg0.N, (cfg0.win 6).flush t = true ∧ i ∈ ((cfg0.win 6).blk t).view.set := by
  refine ⟨pointOf i, flush0_6 _, ?_⟩
  obtain ⟨-, -, -, -, -, -, -, -, -, -, -, -, e0, e1, -⟩ := idx_facts (pointOf i)
  have hi0 : (i 0).val < 4096 := idx2_lt0 i
  have hi1 : (i 1).val < 1024 := idx2_lt1 i
  have hp : (pointOf i).val = (i 0).val / 256 := rfl
  rw [mem_blk6]
  intro a
  match a with
  | ⟨0, _⟩ => show win0_6.index (pointOf i) (0 : Fin 2) * 256 ≤ (i 0).val ∧ (i 0).val < win0_6.index (pointOf i) (0 : Fin 2) * 256 + 256; rw [e0, hp]; omega
  | ⟨1, _⟩ => show win0_6.index (pointOf i) (1 : Fin 2) * 1024 ≤ (i 1).val ∧ (i 1).val < win0_6.index (pointOf i) (1 : Fin 2) * 1024 + 1024; rw [e1]; omega

theorem covered7 (i : S4096x1024.Idx) : ∃ t : Fin cfg0.N, (cfg0.win 7).flush t = true ∧ i ∈ ((cfg0.win 7).blk t).view.set := by
  refine ⟨pointOf i, flush0_7 _, ?_⟩
  obtain ⟨-, -, -, -, -, -, -, -, -, -, -, -, -, -, e0, e1⟩ := idx_facts (pointOf i)
  have hi0 : (i 0).val < 4096 := idx2_lt0 i
  have hi1 : (i 1).val < 1024 := idx2_lt1 i
  have hp : (pointOf i).val = (i 0).val / 256 := rfl
  rw [mem_blk7]
  intro a
  match a with
  | ⟨0, _⟩ => show win0_7.index (pointOf i) (0 : Fin 2) * 256 ≤ (i 0).val ∧ (i 0).val < win0_7.index (pointOf i) (0 : Fin 2) * 256 + 256; rw [e0, hp]; omega
  | ⟨1, _⟩ => show win0_7.index (pointOf i) (1 : Fin 2) * 1024 ≤ (i 1).val ∧ (i 1).val < win0_7.index (pointOf i) (1 : Fin 2) * 1024 + 1024; rw [e1]; omega

/-! ## The result arrays -/

theorem finalH (c : Dev nD) : (dats m 0 c).arrAt 6 cfg0.N = GH m c :=
  (dats m 0 c).arrAt_eq_of_cover 6 (GH m c) (fun t _ => flushedH_eq m c t) covered6

theorem finalC (c : Dev nD) : (dats m 0 c).arrAt 7 cfg0.N = GC m c :=
  (dats m 0 c).arrAt_eq_of_cover 7 (GC m c) (fun t _ => flushedC_eq m c t) covered7

/-- The arrays the call finds, in terms of the launch contents: the three batch arrays as launched, the weight
    halves and the bias row read off the stacked arrays. -/
theorem GC_eq (c : Dev nD) : GC m c = Lstm.cellNext (R := 4096) (m ((c : Thread nD τ).loc main_arg0)) (m ((c : Thread nD τ).loc main_arg1))
    (m ((c : Thread nD τ).loc main_arg2)) (Lstm.waOf (Wcat m c)) (Lstm.wbOf (Wcat m c)) (Lstm.rowOf (bcat m c)) := by
  unfold GC
  rw [show xArr m c = m ((c : Thread nD τ).loc main_arg0) from V_main_arg0 m c, show hArr m c = m ((c : Thread nD τ).loc main_arg1) from V_main_arg1 m c,
    show cArr m c = m ((c : Thread nD τ).loc main_arg2) from V_main_arg2 m c, show waArr m c = _ from V_v5 m c, show wbArr m c = _ from V_v7 m c,
    show bArr m c = _ from V_v8 m c]

theorem GH_eq (c : Dev nD) : GH m c = Lstm.hiddenNext (R := 4096) (m ((c : Thread nD τ).loc main_arg0)) (m ((c : Thread nD τ).loc main_arg1))
    (m ((c : Thread nD τ).loc main_arg2)) (Lstm.waOf (Wcat m c)) (Lstm.wbOf (Wcat m c)) (Lstm.rowOf (bcat m c)) := by
  unfold GH
  rw [show xArr m c = m ((c : Thread nD τ).loc main_arg0) from V_main_arg0 m c, show hArr m c = m ((c : Thread nD τ).loc main_arg1) from V_main_arg1 m c,
    show cArr m c = m ((c : Thread nD τ).loc main_arg2) from V_main_arg2 m c, show waArr m c = _ from V_v5 m c, show wbArr m c = _ from V_v7 m c,
    show bArr m c = _ from V_v8 m c]

/-! ## The run, read -/

/-- Every weakly fair execution of the idealized kernel program ends with the hidden-state result and the
    cell-state result at the LSTM cell of the launch contents, the eleven arguments unchanged. -/
theorem run : θ_run defs (onTc (τ := τ) (main (F := Ideal))) ⟨m, fun _ => 0, ρ⟩ fun r => ∀ c : Dev nD,
      r.2.mem ((c.tc : Thread nD τ).loc main_v9_0) = Lstm.hiddenNext (R := 4096) (m ((c : Thread nD τ).loc main_arg0)) (m ((c : Thread nD τ).loc main_arg1))
          (m ((c : Thread nD τ).loc main_arg2)) (Lstm.waOf (Wcat m c)) (Lstm.wbOf (Wcat m c)) (Lstm.rowOf (bcat m c))
      ∧ r.2.mem ((c.tc : Thread nD τ).loc main_v9_1) = Lstm.cellNext (R := 4096) (m ((c : Thread nD τ).loc main_arg0)) (m ((c : Thread nD τ).loc main_arg1))
          (m ((c : Thread nD τ).loc main_arg2)) (Lstm.waOf (Wcat m c)) (Lstm.wbOf (Wcat m c)) (Lstm.rowOf (bcat m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨
      (((h c).1 6).trans (finalH m c)).trans (GH_eq m c),
      (((h c).1 7).trans (finalC m c)).trans (GC_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.Final

end
-- ==== Proof.RefValue.lean ====
/-
  The reference program's two results are the LSTM cell of its arguments.

  The reference joins the inputs and the hidden state side by side into one [4096, 2048] array, multiplies it by
  the transposed stacked weights in one product over 2048 columns, adds the stacked bias along the rows, cuts the
  four gates out, and spells the sigmoid as 1 / (1 + exp (-z)). Read at an index: the product's sum over 2048 splits
  at 1024 into the inputs' part and the hidden state's part (addition of extended reals is commutative and
  associative, so no finiteness is needed), and the spelled sigmoid is the one function `Ideal.logistic`.
-/
import proofs.«112923_j85194971283756_1_alg».proof.Proof.Gen.ReferenceIdeal.Read
import proofs.«112923_j85194971283756_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The word of 1.0 denotes the extended real 1. -/
private theorem one_f32 : Ideal.ofBits .f32 0x3F800000#32 = 1 := IdealRules.sign_bit.ideal_onePat .f32

/-- A sum over 2048 terms is the sum of its first 1024 and its last 1024 (a commutative monoid: no finiteness asked). -/
private theorem sum_split (f : Fin 2048 → EReal) :
    ∑ k : Fin 2048, f k
      = ∑ k : Fin 1024, f ⟨k.val, by have := k.isLt; omega⟩ + ∑ k : Fin 1024, f ⟨1024 + k.val, by have := k.isLt; omega⟩ :=
  Fin.sum_univ_add (a := 1024) (b := 1024) f

/-- The joined array at a column below 1024 is the inputs' element. -/
private theorem cat_left (x0 x1 : (⟨S4096x1024, .f32⟩ : BufTy).Contents (Elt Ideal)) (i : Fin 4096) (k : Fin 1024) :
    val_main_v0 (F := Ideal) x0 x1 (ix2 i (⟨k.val, by have := k.isLt; omega⟩ : Fin 2048)) = x0 (ix2 i k) := by
  unfold val_main_v0
  exact concatenate_pair_apply_left 1 x0 x1 concatenates_S4096x1024_S4096x1024_S4096x2048_d1 _ rfl (ix2 i k)
    (fun b => match b with | ⟨0, _⟩ => rfl | ⟨1, _⟩ => rfl)

/-- The joined array at column 1024 + k is the hidden state's element at column k. -/
private theorem cat_right (x0 x1 : (⟨S4096x1024, .f32⟩ : BufTy).Contents (Elt Ideal)) (i : Fin 4096) (k : Fin 1024) :
    val_main_v0 (F := Ideal) x0 x1 (ix2 i (⟨1024 + k.val, by have := k.isLt; omega⟩ : Fin 2048)) = x1 (ix2 i k) := by
  unfold val_main_v0
  exact concatenate_pair_apply_right 1 x0 x1 concatenates_S4096x1024_S4096x1024_S4096x2048_d1 _ rfl rfl (ix2 i k)
    (fun b => match b with | ⟨0, _⟩ => fun _ => rfl | ⟨1, _⟩ => fun h => absurd rfl h)
    (by show k.val + 1024 = 1024 + k.val; omega)

/-- The product's left operand at (i, n), term k, sits at (i, k). -/
private theorem lidx_eq (i n : Fin 4096) (k : Fin 2048) : lidx_main_v4 (ix2 i n) k = ix2 i k :=
  funext fun a => match a with | ⟨0, _⟩ => rfl | ⟨1, _⟩ => rfl

/-- The product's right operand at (i, n), term k, is the transposed stacked weights at (k, n): the stacked weights at (n, k). -/
private theorem ridx_eq (i n : Fin 4096) (k : Fin 2048) : idx_main_v3 (ridx_main_v4 (ix2 i n) k) = ix2 n k :=
  funext fun a => match a with | ⟨0, _⟩ => rfl | ⟨1, _⟩ => rfl

/-- The bias broadcast along the rows, read at (i, n), is the stacked bias at n. -/
private theorem bidx_eq (i n : Fin 4096) : idx_main_v5 (idx_main_v6 (ix2 i n)) = ix1 n :=
  funext fun a => match a with | ⟨0, _⟩ => rfl

/-- The biased product at (i, n) is the gate pre-activation of row i at stacked column n: the sum over 2048 columns
    splits at 1024 into the inputs' part against columns 0..1023 of stacked row n and the hidden state's part against
    columns 1024..2047. -/
private theorem pre_eq (x0 x1 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S1024, .f32⟩ : BufTy).Contents (Elt Ideal)) (i : Fin 4096) (n : Fin 4096) :
    val_main_v7 (F := Ideal) x0 x1 x3 x4 x5 x6 x7 x8 x9 x10 (ix2 i n)
      = Lstm.gatePre (R := 4096) x0 x1 (Lstm.waOf (val_main_v1 (F := Ideal) x3 x5 x7 x9)) (Lstm.wbOf (val_main_v1 (F := Ideal) x3 x5 x7 x9))
          (Lstm.rowOf (val_main_v2 (F := Ideal) x4 x6 x8 x10)) i n := by
  rw [val_main_v7_apply, val_main_v4_apply, val_main_v6_apply, val_main_v5_apply]
  simp only [val_main_v3_apply, lidx_eq, ridx_eq, bidx_eq]
  generalize val_main_v1 (F := Ideal) x3 x5 x7 x9 = W
  generalize val_main_v2 (F := Ideal) x4 x6 x8 x10 = B
  rw [sum_split]
  simp only [cat_left, cat_right]
  rfl

/-- The four cuts of the stacked axis: column q of the cut for gate g is stacked column g · 1024 + q. -/
private theorem sidx8 (i : Fin 4096) (q : Fin 1024) : idx_main_v8 (ix2 i q) = ix2 i (Lstm.col 0 q) :=
  funext fun a => match a with
    | ⟨0, _⟩ => rfl
    | ⟨1, _⟩ => Fin.ext (by show q.val = 0 * 1024 + q.val; omega)

private theorem sidx9 (i : Fin 4096) (q : Fin 1024) : idx_main_v9 (ix2 i q) = ix2 i (Lstm.col 1 q) :=
  funext fun a => match a with
    | ⟨0, _⟩ => rfl
    | ⟨1, _⟩ => Fin.ext (by show 1024 + q.val = 1 * 1024 + q.val; omega)

private theorem sidx10 (i : Fin 4096) (q : Fin 1024) : idx_main_v10 (ix2 i q) = ix2 i (Lstm.col 2 q) :=
  funext fun a => match a with
    | ⟨0, _⟩ => rfl
    | ⟨1, _⟩ => Fin.ext (by show 2048 + q.val = 2 * 1024 + q.val; omega)

private theorem sidx11 (i : Fin 4096) (q : Fin 1024) : idx_main_v11 (ix2 i q) = ix2 i (Lstm.col 3 q) :=
  funext fun a => match a with
    | ⟨0, _⟩ => rfl
    | ⟨1, _⟩ => Fin.ext (by show 3072 + q.val = 3 * 1024 + q.val; omega)

/-- The spelled sigmoid 1 / (1 + exp (-z)), with 1 written as its word, is the one function Ideal.logistic. -/
private theorem sig_eq (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.logistic z
  rw [one_f32]
  rfl

/-- The new cell state at (i, q): σ(forget) · c + σ(input) · tanh(cell). -/
private theorem cell_apply (x0 x1 x2 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S1024, .f32⟩ : BufTy).Contents (Elt Ideal)) (i : Fin 4096) (q : Fin 1024) :
    val_main_v33 (F := Ideal) x0 x1 x2 x3 x4 x5 x6 x7 x8 x9 x10 (ix2 i q)
      = Lstm.cellNext (R := 4096) x0 x1 x2 (Lstm.waOf (val_main_v1 (F := Ideal) x3 x5 x7 x9)) (Lstm.wbOf (val_main_v1 (F := Ideal) x3 x5 x7 x9))
          (Lstm.rowOf (val_main_v2 (F := Ideal) x4 x6 x8 x10)) (ix2 i q) := by
  rw [Lstm.cellNext_apply]
  simp only [val_main_v33_apply, val_main_v31_apply, val_main_v32_apply, val_main_v23_apply, val_main_v17_apply,
    val_main_v24_apply, val_main_v22_apply, val_main_cst_2_apply, val_main_v21_apply, val_main_v20_apply,
    val_main_cst_1_apply, val_main_v19_apply, val_main_v18_apply, val_main_v16_apply, val_main_cst_0_apply,
    val_main_v15_apply, val_main_v14_apply, val_main_cst_apply, val_main_v13_apply, val_main_v12_apply,
    val_main_v8_apply, val_main_v9_apply, val_main_v10_apply, sidx8, sidx9, sidx10, pre_eq, sig_eq]
  rfl

/-- The new hidden state at (i, q): σ(output) · tanh of the new cell state. -/
private theorem hidden_apply (x0 x1 x2 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S1024, .f32⟩ : BufTy).Contents (Elt Ideal)) (i : Fin 4096) (q : Fin 1024) :
    val_main_v35 (F := Ideal) x0 x1 x2 x3 x4 x5 x6 x7 x8 x9 x10 (ix2 i q)
      = Lstm.hiddenNext (R := 4096) x0 x1 x2 (Lstm.waOf (val_main_v1 (F := Ideal) x3 x5 x7 x9)) (Lstm.wbOf (val_main_v1 (F := Ideal) x3 x5 x7 x9))
          (Lstm.rowOf (val_main_v2 (F := Ideal) x4 x6 x8 x10)) (ix2 i q) := by
  rw [Lstm.hiddenNext_apply, val_main_v35_apply, val_main_v34_apply, cell_apply]
  simp only [val_main_v30_apply, val_main_v29_apply, val_main_cst_4_apply, val_main_v28_apply, val_main_v27_apply,
    val_main_cst_3_apply, val_main_v26_apply, val_main_v25_apply, val_main_v11_apply, sidx11, pre_eq, sig_eq]
  rfl

/-- The reference's second result (the new cell state) is `Lstm.cellNext` of the arguments, the weights and the bias
    read off the stacked arrays the reference itself builds. -/
theorem ref_cell (x0 x1 x2 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S1024, .f32⟩ : BufTy).Contents (Elt Ideal)) :
    val_main_v33 (F := Ideal) x0 x1 x2 x3 x4 x5 x6 x7 x8 x9 x10
      = Lstm.cellNext (R := 4096) x0 x1 x2 (Lstm.waOf (val_main_v1 (F := Ideal) x3 x5 x7 x9)) (Lstm.wbOf (val_main_v1 (F := Ideal) x3 x5 x7 x9))
          (Lstm.rowOf (val_main_v2 (F := Ideal) x4 x6 x8 x10)) := by
  funext j
  obtain ⟨i, q, rfl⟩ : ∃ (i : Fin 4096) (q : Fin 1024), j = ix2 i q := ⟨j 0, j 1, eq_ix2 j⟩
  exact cell_apply x0 x1 x2 x3 x4 x5 x6 x7 x8 x9 x10 i q

/-- The reference's first result (the new hidden state) is `Lstm.hiddenNext` of the same. -/
theorem ref_hidden (x0 x1 x2 : (⟨S4096x1024, .f32⟩ : BufTy).Contents (Elt Ideal)) (x3 : (⟨S1024x2048, .f32⟩ : BufTy).Contents (Elt Ideal)) (x4 : (⟨S1024, .f32⟩ : BufTy).Contents (Elt Ideal)) (x5 : (⟨S1024x2048, .f32⟩ : BufTy).Contents (Elt Ideal)) (x6 : (⟨S1024, .f32⟩ : BufTy).Contents (Elt Ideal)) (x7 : (⟨S1024x2048, .f32⟩ : BufTy).Contents (Elt Ideal)) (x8 : (⟨S1024, .f32⟩ : BufTy).Contents (Elt Ideal)) (x9 : (⟨S1024x2048, .f32⟩ : BufTy).Contents (Elt Ideal)) (x10 : (⟨S1024, .f32⟩ : BufTy).Contents (Elt Ideal)) :
    val_main_v35 (F := Ideal) x0 x1 x2 x3 x4 x5 x6 x7 x8 x9 x10
      = Lstm.hiddenNext (R := 4096) x0 x1 x2 (Lstm.waOf (val_main_v1 (F := Ideal) x3 x5 x7 x9)) (Lstm.wbOf (val_main_v1 (F := Ideal) x3 x5 x7 x9))
          (Lstm.rowOf (val_main_v2 (F := Ideal) x4 x6 x8 x10)) := by
  funext j
  obtain ⟨i, q, rfl⟩ : ∃ (i : Fin 4096) (q : Fin 1024), j = ix2 i q := ⟨j 0, j 1, eq_ix2 j⟩
  exact hidden_apply x0 x1 x2 x3 x4 x5 x6 x7 x8 x9 x10 i q

end Cert.ReferenceIdeal.RefValue

end
-- ==== Proof.lean ====
/-
  An LSTM cell, tiled over the batch, against the plain jnp cell.

  The kernel stacks the four gate weight matrices and biases, splits the stacked weights into the half that meets
  the inputs and the half that meets the previous hidden state, and computes, 256 batch rows per grid point,
      z = x · Waᵀ + h · Wbᵀ + b,    c' = σ(z_f) · c + σ(z_i) · tanh(z_c),    h' = σ(z_o) · tanh(c').
  The reference joins x and h side by side and takes ONE product with the stacked weights over all 2048 columns.
  Over the extended reals the two are the same function of the arguments: a sum over 2048 columns is the sum of its
  two halves (addition there is commutative and associative; nothing is cancelled or distributed, so the
  precondition is never opened), the narrowings to bf16 are the identity, the kernel's logistic and the reference's
  1 / (1 + exp (-z)) are one function, and each tile is its rows of the whole result.

  The three frames: the two kernel programs by the pipeline's launch theorem over the body's triple (one text, read
  at the word level and at the ideal level), the reference by its run. The idealization changed nothing the ledger
  records, so `preserves` is trivial. `algebraic`: both programs end with their two results at
  `Lstm.hiddenNext` and `Lstm.cellNext` of the launch contents.
-/
import proofs.«112923_j85194971283756_1_alg».proof.Defs
import proofs.«112923_j85194971283756_1_alg».proof.Proof.Gen.Kernel
import proofs.«112923_j85194971283756_1_alg».proof.Proof.Gen.KernelIdeal
import proofs.«112923_j85194971283756_1_alg».proof.Proof.Gen.ReferenceIdeal
import proofs.«112923_j85194971283756_1_alg».proof.Proof.Gen.Pre_finite_inputs
import proofs.«112923_j85194971283756_1_alg».proof.Proof.Gen.ReferenceIdeal.Run
import proofs.«112923_j85194971283756_1_alg».proof.Proof.Gen.ReferenceIdeal.Read
import proofs.«112923_j85194971283756_1_alg».proof.Proof.K.Run
import proofs.«112923_j85194971283756_1_alg».proof.Proof.KI.Final
import proofs.«112923_j85194971283756_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs stack the same four weight matrices and the same four biases. -/
theorem stacked_eq (m : (ℓ : Loc Cert.KernelIdeal.nD Cert.KernelIdeal.τ Cert.KernelIdeal.sig) → Buf (Elt Ideal) ℓ) (c : Dev Cert.KernelIdeal.nD) :
    Cert.ReferenceIdeal.Read.val_main_v1 (F := Ideal)
        (m ((c.tc : Thread Cert.KernelIdeal.nD Cert.KernelIdeal.τ).loc Cert.KernelIdeal.main_arg3)) (m ((c.tc : Thread Cert.KernelIdeal.nD Cert.KernelIdeal.τ).loc Cert.KernelIdeal.main_arg5))
        (m ((c.tc : Thread Cert.KernelIdeal.nD Cert.KernelIdeal.τ).loc Cert.KernelIdeal.main_arg7)) (m ((c.tc : Thread Cert.KernelIdeal.nD Cert.KernelIdeal.τ).loc Cert.KernelIdeal.main_arg9))
      = Cert.KernelIdeal.HostVals.Wcat m c
    ∧ Cert.ReferenceIdeal.Read.val_main_v2 (F := Ideal)
        (m ((c.tc : Thread Cert.KernelIdeal.nD Cert.KernelIdeal.τ).loc Cert.KernelIdeal.main_arg4)) (m ((c.tc : Thread Cert.KernelIdeal.nD Cert.KernelIdeal.τ).loc Cert.KernelIdeal.main_arg6))
        (m ((c.tc : Thread Cert.KernelIdeal.nD Cert.KernelIdeal.τ).loc Cert.KernelIdeal.main_arg8)) (m ((c.tc : Thread Cert.KernelIdeal.nD Cert.KernelIdeal.τ).loc Cert.KernelIdeal.main_arg10))
      = Cert.KernelIdeal.HostVals.bcat m c := ⟨rfl, rfl⟩

theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun _ h c => ?_) (Cert.ReferenceIdeal.Value.run (F := Ideal) m' ρ')
  obtain ⟨h35, h33, hrest⟩ := h c
  obtain ⟨a0, a1, a2, a3, a4, a5, a6, a7, a8, a9, a10⟩ := hagree c
  obtain ⟨eW, eb⟩ := stacked_eq m c
  refine ⟨h35.trans ?_, h33.trans ?_, hrest⟩
  · rw [Cert.ReferenceIdeal.Read.val_main_v35_eq, Cert.ReferenceIdeal.RefValue.ref_hidden, a0, a1, a2, a3, a4, a5, a6, a7, a8, a9, a10, eW, eb]
  · refine (Cert.ReferenceIdeal.Read.val_main_v33_eq _ _ _ _ _ _ _ _ _ _ _).trans ?_
    rw [Cert.ReferenceIdeal.RefValue.ref_cell, a0, a1, a2, a3, a4, a5, a6, a7, a8, a9, a10, eW, eb]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
